-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S1x1024 : Shape := ⟨2, ![1, 1024]⟩
abbrev S1x8192x8192 : Shape := ⟨3, ![1, 8192, 8192]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S1x8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  transposes_S1024x512_p1_0_S512x1024 : S1024x512.Transposes [1, 0] S512x1024
  shapeCasts_S1024x1_S1024 : S1024x1.ShapeCasts S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  bcast_S8192x8192_S1x8192x8192_1_2 : S8192x8192.BroadcastsInDim S1x8192x8192 (![1, 2] : Fin 2 → Fin S1x8192x8192.rank)
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩
abbrev S1x8192x8192 : Shape := ⟨3, ![1, 8192, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S1x8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S8192x8192_S1x8192x8192_1_2 : S8192x8192.BroadcastsInDim S1x8192x8192 (![1, 2] : Fin 2 → Fin S1x8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KernelIdeal.PointRun.lean ====
/-
  One grid point of the distance kernel.

  The output matrix is cut into an 8 x 8 grid of 1024 x 1024 tiles.  At grid point (i, j) the body reads two
  1024 x 512 blocks of the SAME embedding array, rows 1024 i .. 1024 i + 1023 (the row block) and rows
  1024 j .. 1024 j + 1023 (the column block), and stores into the tile's buffer one pure function of the two
  blocks: the row sums of squares of each, their outer sum, minus twice the product of the row block with the
  transposed column block, clamped at zero, square-rooted.  It changes neither input buffer.

  This file fixes, for every point, what each of the three buffers holds before and after the body, and shows the
  body takes the first to the second.  The row block is refetched only when i changes; in between, its buffer
  still holds the block, because the body leaves it in place.
-/
import proofs.«161824_j9397388443804_1_alg».proof.Proof.Gen.KernelIdeal.Launch
import proofs.«161824_j9397388443804_1_alg».proof.Proof.Gen.KernelIdeal.Skeleton
import proofs.«161824_j9397388443804_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at the region's entry, and a window's block at a point -/

/-- A core's buffers when the region is entered: as launched (nothing runs before the region). -/
abbrev entry (c : Dev nD) (b : Ref sig .tc) : Buf (Elt F) ((c : Thread nD τ).loc b) := m ((c : Thread nD τ).loc b)

/-- Window `w`'s block of its array at point `t`: for the two input windows, 1024 rows of the embeddings. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What the three buffers hold around the body -/

/-- The two input buffers are left at their blocks; the tile's buffer at the body's one stored value, a pure
    function of the two blocks.  The two input windows read ONE array, so each holds half of it; the tile's array
    is held whole.  The body keeps nothing between points. -/
def tiles (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => k0_pay1 (block m c 0 t) (block m c 1 t)
  Φ _ := iprop(emp)
  q w := match w with
    | ⟨0, _⟩ => fullShare.left
    | ⟨1, _⟩ => fullShare.right
    | ⟨2, _⟩ => fullShare
  owed _ := 0

theorem tiles_A (c : Dev nD) (w : Fin cfg0.W) : (tiles m 0 c).A w = entry m c (Pipeline.arrRef spec0 w) := by
  dsimp only [tiles]

theorem after_row (c : Dev nD) (t : Fin cfg0.N) : (tiles m 0 c).after 0 t = block m c 0 t := by dsimp only [tiles]
theorem after_col (c : Dev nD) (t : Fin cfg0.N) : (tiles m 0 c).after 1 t = block m c 1 t := by dsimp only [tiles]
theorem after_tile (c : Dev nD) (t : Fin cfg0.N) :
    (tiles m 0 c).after 2 t = k0_pay1 (block m c 0 t) (block m c 1 t) := by dsimp only [tiles]

/-- An input buffer holds its window's block at every point, refetched there or not: where it is not refetched the
    block index has not moved and the body left the block in place. -/
theorem before_row (c : Dev nD) (t : Fin cfg0.N) (d) : (tiles m 0 c).before 0 t d = block m c 0 t :=
  ((tiles m 0 c).before_in_eq_fetched 0 rfl (fun _ => rfl) (fun _ _ _ => rfl)
      (fun t => by rw [after_row]; unfold Dat.blockOf block; rw [tiles_A]; try rfl) t d).trans
    (by unfold Dat.fetched Dat.blockOf block; rw [tiles_A]; try rfl)

theorem before_col (c : Dev nD) (t : Fin cfg0.N) (d) : (tiles m 0 c).before 1 t d = block m c 1 t :=
  ((tiles m 0 c).before_in_eq_fetched 1 rfl (fun _ => rfl) (fun _ _ _ => rfl)
      (fun t => by rw [after_col]; unfold Dat.blockOf block; rw [tiles_A]; try rfl) t d).trans
    (by unfold Dat.fetched Dat.blockOf block; rw [tiles_A]; try rfl)

/-! ## The body -/

/-- Every access of the body is through the whole of its buffer. -/
theorem origin : (![0, 0] : Fin 2 → Nat) = fun _ => 0 := funext fun a => by fin_cases a <;> rfl

set_option maxHeartbeats 1000000 in
/-- The body on three whole buffers, the inputs' reading `x0` and `x1` and the tile's anything: it ends with the
    inputs' as they were and the tile's at the stored value.  (The body also loads the tile's buffer before storing
    into it and uses nothing of what it read.) -/
theorem body_run (c : Dev nD) (E : Set ℕ) (i : grid0.Coords)
    (a0 : Memref sig .tc .vmem S1024x512 .f32) (h0 : a0.IsWhole) (a1 : Memref sig .tc .vmem S1024x512 .f32) (h1 : a1.IsWhole)
    (a2 : Memref sig .tc .vmem S1024x1024 .f32) (h2 : a2.IsWhole)
    (x0 x1 : Vec F S1024x512 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
              ∗ owns (c : Thread nD τ) a2 fullShare (k0_pay1 x0 x1)) -∗ K ⟨⟩))
      ⊢ wp frame (wpE (defs₀ (F := F)) Variants.none c none) E (cc0__cdist_kernel i a0 h0 a1 h1 a2 h2) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (View.cover_of_tiled _ S1024x1024.size (by rfl)), View.canon_unit_zero origin]
  simp only [View.readAt_eq_ld, View.ld_unit_zero (S := S1024x512) origin]

/-! ## The body at a grid point, as the pipeline calls it -/

/-- At point `t` the pipeline hands the body each window's current buffer: the inputs' at their blocks
    (`before_row`, `before_col`), the tile's at whatever it held.  The body leaves them as `tiles` says; the empty
    invariant and what the core owes (nothing) are untouched. -/
theorem point_run (c : Dev nD) (t : Fin cfg0.N) :
    iprop((tiles m 0 c).Φ t.castSucc ∗ (tiles m 0 c).owesAt () t.castSucc
        ∗ (∃ d, owns (c : Thread nD τ) (st0_0 t) fullShare ((tiles m 0 c).before 0 t d))
        ∗ (∃ d, owns (c : Thread nD τ) (st0_1 t) fullShare ((tiles m 0 c).before 1 t d))
        ∗ (∃ d, owns (c : Thread nD τ) (st0_2 t) fullShare ((tiles m 0 c).before 2 t d)))
      ⊢ wp frame (wpE (defs₀ (F := F)) Variants.none c none) Set.univ (bodyAt0 t) (fun _ =>
          iprop((tiles m 0 c).Φ t.succ ∗ (tiles m 0 c).owesAt () t.succ
            ∗ owns (c : Thread nD τ) (st0_0 t) fullShare ((tiles m 0 c).after 0 t)
            ∗ owns (c : Thread nD τ) (st0_1 t) fullShare ((tiles m 0 c).after 1 t)
            ∗ owns (c : Thread nD τ) (st0_2 t) fullShare ((tiles m 0 c).after 2 t))) := by
  unfold bodyAt0
  simp only [before_row, before_col]
  rw [show (tiles m 0 c).Φ t.succ = (tiles m 0 c).Φ t.castSucc from rfl,
    show (tiles m 0 c).owesAt () t.succ = (tiles m 0 c).owesAt () t.castSucc from rfl,
    after_row, after_col, after_tile]
  iintro ⟨HΦ, Ho, ⟨%d0, H0⟩, ⟨%d1, H1⟩, ⟨%d2, H2⟩⟩
  iapply (body_run c Set.univ (grid0.coords t) _ _ _ _ _ _ (block m c 0 t) (block m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The same, in the form the launch asks for. -/
theorem point_obligation (c : Dev nD) :
    BodyObligation (tiles (F := F) m 0 c) (defs₀ (F := F)) Variants.none () Set.univ := fun t => by
  rw [bigSep_W0, bigSep_W0]
  exact point_run m c t

end Cert.KernelIdeal.Tiles

end
-- ==== Proof.KernelIdeal.WholeRun.lean ====
/-
  The whole run of the distance kernel's program: the 64 grid points, then the one host operation that views the
  8192 x 8192 distance matrix as a 1 x 8192 x 8192 array.
-/
import proofs.«161824_j9397388443804_1_alg».proof.Proof.KernelIdeal.PointRun
import Idealize.ShloMosaic.Lib.Pipeline.FrameSuffix

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-- The launch's ghost state: every staging cell's owner at round 0, a duty token per transfer of the pipeline. -/
def u₀ : UR sig nD τ := initOf (Pipeline.cells cfgs cellOf_inj) (Pipeline.launchToks cfgs cellOf_inj)

/-- The distance matrix after the last grid point, as the pipeline's bookkeeping computes it. -/
def matrix (c : Dev nD) : Buf (Elt F) ((cfg0.win 2).arr.view.loc (c : Thread nD τ)) := (tiles m 0 c).arrAt 2 cfg0.N

/-- The result of the program: the matrix with a leading axis of length one. -/
def lifted (c : Dev nD) : Buf (Elt F) ((c : Thread nD τ).loc main_v1) :=
  broadcastInDim S1x8192x8192 ![1, 2] bcast_S8192x8192_S1x8192x8192_1_2 (matrix m c)

/-! ## The one embedding array under two windows

Both input windows read the embedding array, so neither can hold it whole: the row window holds its left half share,
the column window the right half, and the two halves make the whole at the region's entry and again at its exit. -/

/-- The pipeline's three arrays, one by one: the embeddings at the left half share (row window) and at the right
    half (column window), the distance matrix whole. -/
theorem arrays_open (c : Dev nD) (G : (w : Fin cfg0.W) → Buf (Elt F) ((cfg0.win w).arr.view.loc (c.tc : Thread nD τ))) :
    ((tiles m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2)) := by
  unfold Dat.arrays
  rw [bigSep_W0, (arr_whole0 0).set_eq_univ, (arr_whole0 2).set_eq_univ]
  rfl

/-- At entry: the embeddings and the (not yet written) matrix, each whole, are the pipeline's arrays. -/
theorem arrays_enter (c : Dev nD) :
    (Pipeline.arrBufs spec0 c (entry m c) : sProp 𝕄) ⊢ (tiles m 0 c).arrays ((tiles m 0 c).arrAt · 0) := by
  rw [arrays_open]
  unfold Pipeline.arrBufs
  rw [show Finset.univ.image (Pipeline.arrRef spec0) = {main_arg0, main_v0} from by decide, bigSep_insert (by decide), bigSep_singleton]
  refine (show iprop((((c.tc : Thread nD τ).loc main_arg0) ↦{fullShare} entry m c main_arg0)
      ∗ (((c.tc : Thread nD τ).loc main_v0) ↦{fullShare} entry m c main_v0)) ⊢ _ from ?_)
  iintro ⟨Ha, Hv⟩
  ihave H := ((pointsTo_share (PosShare.mem_left_op_right fullShare)).1) $$ Ha
  icases H with ⟨Hl, Hr⟩
  isplitl [Hl]; · iexact Hl
  isplitl [Hr]; · iexact Hr
  iexact Hv

/-! ## The host line after the region

One operation: the matrix, read whole, is written to the result buffer with a leading axis of length one.  It
touches those two buffers only; the embeddings' two half shares pass by it untouched. -/

/-- The two buffers the closing line touches. -/
abbrev lineBufs : Finset (DevRef τ sig) := {Proc.devRef .tc main_v0, Proc.devRef .tc main_v1}

/-- The core's buffers at the region's exit: as launched, but for the matrix, which the grid has filled. -/
def exitVal (c : Dev nD) : Valuation τ sig (Elt F) :=
  Function.update (fun b => m (c, b)) (Proc.devRef .tc main_v0) (matrix m c)

theorem exitVal_matrix (c : Dev nD) : exitVal m c (Proc.devRef .tc main_v0) = matrix m c := by
  unfold exitVal; exact Function.update_self ..

theorem exitVal_result (c : Dev nD) : exitVal m c (Proc.devRef .tc main_v1) = entry m c main_v1 := by
  unfold exitVal; exact Function.update_of_ne (StableHlo.devRef_ne_of_ne (by decide)) ..

/-- After the line the matrix is as it was and the result buffer holds it lifted. -/
theorem line_matrix (c : Dev nD) :
    StableHlo.after (List.flatten [hostOps1 (F := F)]) (exitVal m c) (Proc.devRef .tc main_v0) = matrix m c := by
  simp only [List.flatten_cons, List.flatten_nil, List.append_nil, hostOps1]
  after_results
  exact exitVal_matrix m c

theorem line_result (c : Dev nD) :
    StableHlo.after (List.flatten [hostOps1 (F := F)]) (exitVal m c) (Proc.devRef .tc main_v1) = lifted m c := by
  simp only [List.flatten_cons, List.flatten_nil, List.append_nil, hostOps1]
  after_results
  rw [exitVal_matrix]; rfl

/-- The two buffers, held at a valuation, one by one. -/
theorem held_line (c : Dev nD) (W : Valuation τ sig (Elt F)) :
    (StableHlo.held (c.tc : Thread nD τ) lineBufs W : sProp 𝕄)
      = iprop((((c.tc : Thread nD τ).loc main_v0) ↦{fullShare} W (Proc.devRef .tc main_v0))
          ∗ (((c.tc : Thread nD τ).loc main_v1) ↦{fullShare} W (Proc.devRef .tc main_v1))) := by
  unfold StableHlo.held lineBufs
  rw [bigSep_insert (by rw [Finset.mem_singleton]; exact StableHlo.devRef_ne_of_ne (by decide)), bigSep_singleton]
  rfl

set_option backward.isDefEq.respectTransparency.types false in
/-- From the region's exit the line runs, and hands back the pipeline's arrays as they were and the result buffer
    at the lifted matrix. -/
theorem lift_line (c : Dev nD) (Q' : PUnit → sProp 𝕄) :
    iprop((iprop((tiles m 0 c).arrays ((tiles m 0 c).arrAt · cfg0.N) ∗ (((c.tc : Thread nD τ).loc main_v1) ↦{fullShare} lifted m c)) -∗ Q' ⟨⟩)
        ∗ boundary (c.tc : Thread nD τ) ∗ (tiles m 0 c).arrays ((tiles m 0 c).arrAt · cfg0.N)
        ∗ (((c.tc : Thread nD τ).loc main_v1) ↦{fullShare} entry m c main_v1))
      ⊢ wp frame (wpE (Pipeline.defs (fun p => (cfgs p).toPCfg) (defs₀ (F := F))) (Variants.lift Variants.none) (c.tc : Thread nD τ) none) Set.univ
          (Pipeline.chain ([hostOps1].map StableHlo.seq)) Q' := by
  rw [arrays_open]
  have hw := Pipeline.wp_seqs_then (Ix := Unit) (Name := ℕ) (U := UR sig nD τ) (Lvl := ℕ) (fun p => (cfgs p).toPCfg) (defs₀ (F := F)) Variants.none c
    lineBufs [] (K := Q') [hostOps1]
    (fun ops hops op hop => by
      rw [List.mem_singleton] at hops; subst hops
      simp only [hostOps1, List.mem_singleton] at hop; subst hop
      rw [StableHlo.unary_bufs])
    (fun ops hops op hop => by
      rw [List.mem_singleton] at hops; subst hops
      simp only [hostOps1, List.mem_singleton] at hop; subst hop
      rfl)
    (exitVal m c)
  rw [List.append_nil, held_line, held_line, line_matrix, line_result, exitVal_matrix, exitVal_result] at hw
  iintro ⟨Hk, Hb, ⟨H0, H1, H2⟩, HZ⟩
  iapply hw $$ [Hb H2 HZ]
  · isplitl [Hb]; · iexact Hb
    isplitl [H2]; · iexact H2
    iexact HZ
  iintro ⟨Hb, H2, HZ⟩
  rw [Pipeline.chain_nil, wp_pure]; imodintro
  iapply Hk
  isplitl [H0 H1 H2]
  · isplitl [H0]; · iexact H0
    isplitl [H1]; · iexact H1
    iexact H2
  iexact HZ

set_option backward.isDefEq.respectTransparency.types false in
theorem run : θ_run defs (onTc (τ := τ) (main (F := F))) (s₀ m ρ) (fun r => ∀ c : Dev nD,
      r.2.mem ((c.tc : Thread nD τ).loc main_v1) = lifted m c
      ∧ r.2.mem ((c.tc : Thread nD τ).loc main_arg0) = m ((c.tc : Thread nD τ).loc main_arg0)) :=
  Pipeline.θ_run_region_noSem_pf_tail (fun p => (cfgs p).toPCfg) (fun p => (cfgs p).toPCfg_adm) (tiles m) () cellOf_inj (0 : Fin 1)
    winFacts₀0 (Pipeline.PreFacts.none _) EP defs₀ Variants.none m ρ main (fun _ => Pipeline.chain ([hostOps1].map StableHlo.seq))
    (hbody := fun c => (point_obligation m c).loose) (hne := block_pos0) (harr := arr_whole0) (hstage := stage_whole0)
    (howed := fun _ _ => rfl) (u₀ := u₀) (hu₀ := BI.Entails.refl _)
    (V := entry m)
    (hmain := Pipeline.hmain_around cfgs 0 defs₀ Variants.none m main [] [hostOps1] (by simp) (by simp) fun c => (main_chain c).trans rfl)
    (hsplit := arrays_enter m)
    (hpf := fun _ k => k.elim0)
    (X := fun _ => iprop(emp)) (Y := fun _ => iprop(emp))
    (Z := fun c => iprop(((c : Thread nD τ).loc main_v1) ↦{fullShare} entry m c main_v1))
    (Z' := fun c => iprop(((c : Thread nD τ).loc main_v1) ↦{fullShare} lifted m c))
    (hX := fun c => by
      rw [Pipeline.unscopedRestP_none, unscopedRest0_eq]
      iintro H; isplitr; · iempintro
      iexact H)
    (hin := fun c => by dsimp only [tiles]; iintro -; iempintro)
    (hout := fun c => by rw [scopedRest0_eq]; iintro -; isplitr <;> iempintro)
    (htail := lift_line m)
    (QY := fun c s => s.mem ((c.tc : Thread nD τ).loc main_v1) = lifted m c)
    (hY := fun c s' => by
      iintro ⟨-, HZ, HSI⟩
      icombine HSI HZ gives %h
      imodintro
      isplitr; · ipureintro; exact Buf.eq_of_forall_mem_univ h
      iexact HSI)
    (hQ := fun s h c => ⟨(h c).2.2, ((h c).1 0).trans (((tiles m 0 c).arrAt_in 0 rfl _).trans (tiles_A m c 0))⟩)

end Cert.KernelIdeal.Tiles

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUncolumn.lean ====
/-
  A column read back as a vector.

  The companion of the column forms: an `[a, 1]` column viewed as an `[a]` vector (what `sq[:, 0]` of a
  `keepdims` sum prints as) reads, at `i`, the column's entry `(i, 0)`: both are position `i` in row-major order.
-/
import Idealize.ShloMosaic.Lib.ValueLayout

namespace Cert.LibUncolumn

open Idealize.ShloMosaic Idealize.ShloMosaic.ValueIdx

variable {α : Type}

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibUncolumn
-- ==== Proof.KernelIdeal.TileEntry.lean ====
/-
  One entry of a stored tile, over the extended reals.

  With `a` the row block and `b` the column block (1024 x 512 each), the body stores, at (p, q),

      sqrt (max ((sum_k a[p,k]^2 + sum_k b[q,k]^2) - 2 * sum_k a[p,k] * b[q,k], 0)).

  The sums of squares are lane sums of the squared blocks, kept as columns; the first is spread along the rows as
  it is, the second is turned into a row first (column -> vector -> row) and spread down the columns.  The product
  is the matrix unit's, into a zero accumulator, of `a` with the transpose of `b`; the change of format to bf16 in
  front of it is the identity on the extended reals.
-/
import proofs.«161824_j9397388443804_1_alg».proof.Proof.Gen.KernelIdeal.Skeleton
import proofs.«161824_j9397388443804_1_alg».proof.Proof.LibColumn
import proofs.«161824_j9397388443804_1_alg».proof.Proof.LibUncolumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileEntry

open Cert.KernelIdeal Cert.KernelIdeal.Gen
open Idealize.ShloMosaic Idealize.ShloMosaic.ValueIdx Cert.LibColumn Cert.LibUncolumn

/-! ## The layout steps -/

/-- A per-row quantity kept as a column and spread along the rows: at (p, q) it is the quantity of row p. -/
theorem spread_rows {α : Type} (v : S1024.Idx → α) (p q : Fin 1024) :
    broadcastTo S1024x1024 (shapeCast S1024x1 v shapeCasts_S1024_S1024x1) broadcasts_S1024x1_S1024x1024 (ix2 p q) = v (ix1 p) :=
  (broadcastTo_a1_ab_apply _ broadcasts_S1024x1_S1024x1024 p q).trans (shapeCast_a_a1_apply v shapeCasts_S1024_S1024x1 p 0)

/-- A per-row quantity kept as a column, read back as a vector, laid as a row and spread down the columns: at
    (p, q) it is the quantity of row q. -/
theorem spread_cols {α : Type} (v : S1024.Idx → α) (p q : Fin 1024) :
    broadcastTo S1024x1024
        (shapeCast S1x1024 (shapeCast S1024 (shapeCast S1024x1 v shapeCasts_S1024_S1024x1) shapeCasts_S1024x1_S1024) shapeCasts_S1024_S1x1024)
        broadcasts_S1x1024_S1024x1024 (ix2 p q) = v (ix1 q) :=
  (broadcastTo_1b_ab_apply _ broadcasts_S1x1024_S1024x1024 p q).trans
    ((shapeCast_a_1a_apply _ shapeCasts_S1024_S1x1024 0 q).trans
      ((shapeCast_a1_a_apply _ shapeCasts_S1024x1_S1024 q).trans (shapeCast_a_a1_apply v shapeCasts_S1024_S1024x1 q 0)))

/-! ## The two reductions -/

/-- The lane sum of a squared block, at row p: the sum of the squares of the row's 512 entries. -/
theorem row_squares (x : FVec Ideal S1024x512 .f32) (hacc : (0x00000000#32 : BitVec 32) = 0x00000000#32) (p : Fin 1024) :
    multiReduction .add [1] S1024 (mulf x x) 0x00000000#32 reduces_S1024x512_S1024 (.inl rfl) hacc (ix1 p)
      = ∑ k : Fin 512, x (ix2 p k) * x (ix2 p k) := by
  refine (Ideal.multiReduction_add_single (mulf x x) 0x00000000#32 reduces_S1024x512_S1024 (.inl rfl) hacc (ix1 p)).trans ?_
  refine Finset.sum_congr rfl fun k _ => ?_
  have e : reduces_S1024x512_S1024.lift (ix1 p) k = ix2 p k :=
    funext fun a => Fin.ext (by match a with | ⟨0, _⟩ => rfl | ⟨1, _⟩ => rfl)
  rw [e]; rfl

abbrev gramDims := dot_S1024x512_S512x1024_S1024x1024_1_0_0_1_n_n

theorem gram_lhs_0 (i : S1024x1024.Idx) (r : gramDims.contr.Idx) : (gramDims.lhsIdx i r 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem gram_lhs_1 (i : S1024x1024.Idx) (r : gramDims.contr.Idx) : (gramDims.lhsIdx i r 1).val = (r ⟨0, by decide⟩).val :=
  dot_S1024x512_S512x1024_S1024x1024_1_0_0_1_n_n.lhsIdx_val_of_single rfl i r
theorem gram_rhs_0 (i : S1024x1024.Idx) (r : gramDims.contr.Idx) : (gramDims.rhsIdx i r 0).val = (r ⟨0, by decide⟩).val :=
  dot_S1024x512_S512x1024_S1024x1024_1_0_0_1_n_n.rhsIdx_val_of_single rfl i r
theorem gram_rhs_1 (i : S1024x1024.Idx) (r : gramDims.contr.Idx) : (gramDims.rhsIdx i r 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product of the row block with the transposed column block, into zero, at (p, q): the inner product of row p
    of the one with row q of the other. -/
theorem gram_apply (x0 x1 : FVec Ideal S1024x512 .f32) (p q : Fin 1024) :
    matmul dot_S1024x512_S512x1024_S1024x1024_1_0_0_1_n_n none (truncf .bf16 x0 bitsLt_bf16_f32)
        (transpose S512x1024 [1, 0] (truncf .bf16 x1 bitsLt_bf16_f32) transposes_S1024x512_p1_0_S512x1024)
        (constant S1024x1024 .f32 0x00000000#32) (ix2 p q)
      = ∑ k : Fin 512, x0 (ix2 p k) * x1 (ix2 q k) := by
  refine (Ideal.matmul_constant_zero_apply _ none _ _ (ix2 p q)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q)
      ((ValueIdx.contrEquiv1 dot_S1024x512_S512x1024_S1024x1024_1_0_0_1_n_n 512 rfl rfl).symm k) = ix2 p k :=
    funext fun a => Fin.ext (by
      match a with
      | ⟨0, _⟩ => exact gram_lhs_0 _ _
      | ⟨1, _⟩ => exact (gram_lhs_1 _ _).trans hk)
  have er : dot_S1024x512_S512x1024_S1024x1024_1_0_0_1_n_n.rhsIdx (ix2 p q)
      ((ValueIdx.contrEquiv1 dot_S1024x512_S512x1024_S1024x1024_1_0_0_1_n_n 512 rfl rfl).symm k) = ix2 k q :=
    funext fun a => Fin.ext (by
      match a with
      | ⟨0, _⟩ => exact (gram_rhs_0 _ _).trans hk
      | ⟨1, _⟩ => exact gram_rhs_1 _ _)
  rw [el, er, transpose_ix2_apply]
  rfl

/-! ## The entry -/

/-- The distance of row `p` of `a` from row `q` of `b`, by the expansion of the square. -/
def rowDist (a b : S1024x512.Idx → EReal) (p q : Fin 1024) : EReal :=
  Ideal.sqrt (max (((∑ k : Fin 512, a (ix2 p k) * a (ix2 p k)) + ∑ k : Fin 512, b (ix2 q k) * b (ix2 q k))
      - Ideal.ofBits .f32 0x40000000#32 * ∑ k : Fin 512, a (ix2 p k) * b (ix2 q k)) (Ideal.ofBits .f32 0x00000000#32))

/-- What the body stores, at (p, q). -/
theorem tile_apply (x0 x1 : Vec Ideal S1024x512 .f32) (p q : Fin 1024) :
    k0_pay1 (F := Ideal) x0 x1 (ix2 p q) = rowDist x0 x1 p q := by
  unfold k0_pay1 rowDist
  refine congrArg Ideal.sqrt (congrArg₂ max (congrArg₂ (· - ·) (congrArg₂ (· + ·) ?_ ?_) (congrArg (Ideal.ofBits .f32 0x40000000#32 * ·) ?_)) rfl)
  · exact (spread_rows _ p q).trans (row_squares x0 rfl p)
  · exact (spread_cols _ p q).trans (row_squares x1 rfl q)
  · exact gram_apply x0 x1 p q

end Cert.KernelIdeal.TileEntry

end
-- ==== Proof.Distance.lean ====
/-
  The specification: all pairwise Euclidean distances of 8192 points in 512 dimensions, by the expansion

      |x_r - x_c|^2 = |x_r|^2 + |x_c|^2 - 2 <x_r, x_c>,

  clamped at zero before the square root.  Stated over the extended reals, with the two float constants (2 and 0)
  kept as the words both programs print, so that neither is ever evaluated on the way.
-/
import Idealize.ShloMosaic.Lib.ValueIdx
import Idealize.ShloMosaic.PureOps.Ideal

noncomputable section

namespace Cert.Distance

open Idealize.ShloMosaic Idealize.ShloMosaic.ValueIdx

/-- The distance of point `r` from point `c`. -/
def pairDist (x : (⟨2, ![8192, 512]⟩ : Shape).Idx → EReal) (r c : Fin 8192) : EReal :=
  Ideal.sqrt (max (((∑ k : Fin 512, x (ix2 r k) * x (ix2 r k)) + ∑ k : Fin 512, x (ix2 c k) * x (ix2 c k))
      - Ideal.ofBits .f32 0x40000000#32 * ∑ k : Fin 512, x (ix2 r k) * x (ix2 c k)) (Ideal.ofBits .f32 0x00000000#32))

/-- The whole result: the distance matrix under a leading axis of length one. -/
def result (x : (⟨2, ![8192, 512]⟩ : Shape).Idx → EReal) : (⟨3, ![1, 8192, 8192]⟩ : Shape).Idx → EReal :=
  fun i => pairDist x (i 1) (i 2)

end Cert.Distance

end
-- ==== Proof.KernelIdeal.Matrix.lean ====
/-
  The distance matrix from its 64 tiles.

  Tile (i, j) is written back to rows 1024 i .. and columns 1024 j .. of the matrix.  Its row block is rows 1024 i ..
  of the embeddings and its column block rows 1024 j .., so entry (p, q) of the tile is the distance of point
  1024 i + p from point 1024 j + q: the tile IS that block of the whole distance matrix.  The 64 tiles cover the
  matrix, so after the last write-back the matrix holds every distance; the closing host line only adds a leading
  axis of length one.
-/
import proofs.«161824_j9397388443804_1_alg».proof.Proof.KernelIdeal.WholeRun
import proofs.«161824_j9397388443804_1_alg».proof.Proof.KernelIdeal.TileEntry
import proofs.«161824_j9397388443804_1_alg».proof.Proof.Distance

set_option maxRecDepth 16384

noncomputable section

namespace Cert.KernelIdeal.Matrix

open Cert.KernelIdeal Cert.KernelIdeal.Gen Cert.KernelIdeal.Tiles Cert.KernelIdeal.TileEntry Cert.Distance
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The embeddings, as launched on core `c`. -/
abbrev points (c : Dev nD) : S8192x512.Idx → EReal := m ((c : Thread nD τ).loc main_arg0)

/-- Every distance, as one 8192 x 8192 array. -/
def allDist (x : S8192x512.Idx → EReal) : S8192x8192.Idx → EReal := fun i => pairDist x (i 0) (i 1)

/-! ## Where a tile and its two blocks sit -/

/-- The three index maps over the grid: the row block moves with the tile's row index, the column block with its
    column index, neither along the lanes; the tile's indices run over 0 .. 7. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every tile position is some grid point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Row `p` of the row block at point `t` is the embeddings' row that the tile's entry (p, q) stands in. -/
theorem row_block (c : Dev nD) (t : Fin cfg0.N) (p q : Fin 1024) (k : Fin 512) :
    block m c 0 t (ix2 p k) = points m c (ix2 (((cfg0.win 2).blk t).view.emb (ix2 p q) 0) k) := by
  obtain ⟨e0, e1, e2, e3, e4, e5⟩ := index_facts t
  show points m c (((cfg0.win 0).blk t).view.emb (ix2 p k)) = _
  refine congrArg (points m c) (funext fun a => Fin.ext ?_)
  match a with
  | ⟨0, _⟩ => show win0_0.index t (0 : Fin 2) * 1024 + 1 * p.val = win0_2.index t (0 : Fin 2) * 1024 + 1 * p.val; omega
  | ⟨1, _⟩ => show win0_0.index t (1 : Fin 2) * 512 + 1 * k.val = k.val; omega

/-- Row `q` of the column block at point `t` is the embeddings' row of the column that entry (p, q) stands in. -/
theorem col_block (c : Dev nD) (t : Fin cfg0.N) (p q : Fin 1024) (k : Fin 512) :
    block m c 1 t (ix2 q k) = points m c (ix2 (((cfg0.win 2).blk t).view.emb (ix2 p q) 1) k) := by
  obtain ⟨e0, e1, e2, e3, e4, e5⟩ := index_facts t
  show points m c (((cfg0.win 1).blk t).view.emb (ix2 q k)) = _
  refine congrArg (points m c) (funext fun a => Fin.ext ?_)
  match a with
  | ⟨0, _⟩ => show win0_1.index t (0 : Fin 2) * 1024 + 1 * q.val = win0_2.index t (1 : Fin 2) * 1024 + 1 * q.val; omega
  | ⟨1, _⟩ => show win0_1.index t (1 : Fin 2) * 512 + 1 * k.val = k.val; omega

/-! ## A tile is a block of the distance matrix -/

/-- What point `t` writes back is block `t` of the array of all distances. -/
theorem tile_written (c : Dev nD) (t : Fin cfg0.N) :
    (tiles m 0 c).flushed 2 t = ((cfg0.win 2).blk t).view.read (Elt Ideal) (allDist (points m c)) := by
  show (cfg0.win 2).cut (grid0.coords t) ((tiles m 0 c).after 2 t) = _
  rw [after_tile]
  funext j
  obtain ⟨p, q, rfl⟩ : ∃ (p q : Fin 1024), j = ix2 p q := ⟨j 0, j 1, eq_ix2 j⟩
  show k0_pay1 (F := Ideal) (block m c 0 t) (block m c 1 t) (ix2 p q) = allDist (points m c) (((cfg0.win 2).blk t).view.emb (ix2 p q))
  refine (tile_apply _ _ p q).trans ?_
  unfold rowDist allDist pairDist
  simp only [row_block m c t p q, col_block m c t p q]

/-- An index of the matrix lies in point `t`'s tile iff each coordinate lies in the tile's 1024 on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the matrix: index (r, c) lies in the tile at (r / 1024, c / 1024). -/
theorem covered (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the last grid point the matrix holds every distance. -/
theorem matrix_eq (c : Dev nD) : matrix m c = allDist (points m c) :=
  (tiles m 0 c).arrAt_eq_of_cover 2 _ (fun t _ => tile_written m c t) covered

/-- And the program's result is the specification's. -/
theorem lifted_eq (c : Dev nD) : lifted m c = result (points m c) := by
  funext i
  unfold lifted
  rw [matrix_eq]
  exact broadcastInDim_apply _ bcast_S8192x8192_S1x8192x8192_1_2 _ i (ix2 (i 1) (i 2)) (fun a => match a with
    | ⟨0, _⟩ => by show (i 1).val = if (8192 : Nat) = 1 then 0 else (i 1).val; rw [if_neg (by decide)]
    | ⟨1, _⟩ => by show (i 2).val = if (8192 : Nat) = 1 then 0 else (i 2).val; rw [if_neg (by decide)])

end Cert.KernelIdeal.Matrix

end
-- ==== Proof.RefValue.lean ====
/-
  The reference computes the specification.

  Its nineteen host operations, read at one index of the result: the row sums of squares are a host sum from the
  constant zero (which drops out), spread once along rows and once down columns; the product is a `dot_general` of
  the embeddings with their own transpose; then twice the product is subtracted, the clamp, the host square root
  (the same function as the kernel's on the extended reals), and the leading axis.
-/
import proofs.«161824_j9397388443804_1_alg».proof.Proof.Gen.ReferenceIdeal.Read
import proofs.«161824_j9397388443804_1_alg».proof.Proof.Distance
import Idealize.ShloMosaic.Lib.ValueIdx
import Idealize.ShloMosaic.PureOps.Ideal.Laws

noncomputable section

namespace Cert.RefValue

open Cert.ReferenceIdeal Cert.ReferenceIdeal.Gen Cert.ReferenceIdeal.Read
open Idealize.ShloMosaic Idealize.ShloMosaic.ValueIdx Cert.Distance

/-- The reference's last stage, at (0, r, c), is the distance of point r from point c. -/
theorem stage_apply (x : S8192x512.Idx → EReal) (r c : Fin 8192) :
    val_main_v15 (F := Ideal) x (ix3 (0 : Fin 1) r c) = pairDist x r c := by
  rw [val_main_v15_apply, val_main_v14_apply, val_main_v13_apply, val_main_v11_apply, val_main_v8_apply,
    val_main_v6_apply, val_main_v4_apply, val_main_v1_apply, val_main_v7_apply, val_main_v5_apply, val_main_v1_apply,
    val_main_v10_apply, val_main_v9_apply, val_main_cst_0_apply, val_main_v3_apply, val_main_v12_apply, val_main_cst_1_apply]
  unfold pairDist
  -- the operations' composed index maps, at (0, r, c), are rows r and c of the embeddings
  have row_r : ∀ k : Fin 512, idx_main_v1 (idx_main_v4 (idx_main_v6 (idx_main_v15 (ix3 (0 : Fin 1) r c)))) k = ix2 r k :=
    fun k => funext fun a => Fin.ext (by match a with | ⟨0, _⟩ => rfl | ⟨1, _⟩ => rfl)
  have row_c : ∀ k : Fin 512, idx_main_v1 (idx_main_v5 (idx_main_v7 (idx_main_v15 (ix3 (0 : Fin 1) r c)))) k = ix2 c k :=
    fun k => funext fun a => Fin.ext (by match a with | ⟨0, _⟩ => rfl | ⟨1, _⟩ => rfl)
  have dot_l : ∀ k : Fin 512, lidx_main_v3 (idx_main_v15 (ix3 (0 : Fin 1) r c)) k = ix2 r k :=
    fun k => funext fun a => Fin.ext (by match a with | ⟨0, _⟩ => rfl | ⟨1, _⟩ => rfl)
  have dot_r : ∀ k : Fin 512, idx_main_v2 (ridx_main_v3 (idx_main_v15 (ix3 (0 : Fin 1) r c)) k) = ix2 c k :=
    fun k => funext fun a => Fin.ext (by match a with | ⟨0, _⟩ => rfl | ⟨1, _⟩ => rfl)
  simp only [val_main_v0_apply, val_main_v2_apply, val_main_cst_apply, Ideal.hostUnary_sqrt_def, Ideal.maximumf_def,
    Ideal.subf_def, Ideal.addf_def, Ideal.mulf_def, Ideal.ofBits_def, Ideal.ofBits_zero_f32, zero_add,
    row_r, row_c, dot_l, dot_r]

/-- So the reference's result array is the specification's. -/
theorem stage_eq (x : S8192x512.Idx → EReal) : val_main_v15 (F := Ideal) x = result x := by
  funext i
  obtain ⟨u, r, c, rfl⟩ : ∃ (u : Fin 1) (r c : Fin 8192), i = ix3 u r c := ⟨i 0, i 1, i 2, eq_ix3 i⟩
  obtain rfl : u = 0 := Subsingleton.elim _ _
  exact stage_apply x r c

end Cert.RefValue

end
-- ==== Proof.lean ====
/-
  All pairwise distances of 8192 points in 512 dimensions: the tiled kernel against the plain reference.

  Both programs compute, for every pair (r, c),

      sqrt (max (|x_r|^2 + |x_c|^2 - 2 <x_r, x_c>, 0)),

  with the same grouping and the same two constants.  The kernel does it tile by tile on an 8 x 8 grid, each tile
  from two 1024-row blocks of the one embedding array (which the two input windows therefore share, half each);
  the reference does it on the whole arrays.  On the extended reals the matrix unit's product into a zero
  accumulator is the host's `dot_general`, the lane sum is the host's sum from zero, the change of format in front
  of the product is the identity, and the two square roots are one function: so no algebraic law is needed beyond
  `0 + s = s`, and the precondition (finite inputs) is never opened.

  * `Proof/Distance.lean`: the specification.
  * `Proof/KernelIdeal/PointRun.lean`, `WholeRun.lean` (and their copies for the word-level program under
    `Proof/Kernel/`): the body at a grid point; the launch with the shared array; the host line after the region.
  * `Proof/KernelIdeal/TileEntry.lean`, `Matrix.lean`: a tile's entry; the matrix from its tiles.
  * `Proof/RefValue.lean`: the reference's stages read at an index.
-/
import proofs.«161824_j9397388443804_1_alg».proof.Defs
import proofs.«161824_j9397388443804_1_alg».proof.Proof.Gen.Kernel
import proofs.«161824_j9397388443804_1_alg».proof.Proof.Gen.KernelIdeal
import proofs.«161824_j9397388443804_1_alg».proof.Proof.Gen.ReferenceIdeal
import proofs.«161824_j9397388443804_1_alg».proof.Proof.Gen.Pre_finite_inputs
import proofs.«161824_j9397388443804_1_alg».proof.Proof.Gen.ReferenceIdeal.Run
import proofs.«161824_j9397388443804_1_alg».proof.Proof.Gen.ReferenceIdeal.Read
import proofs.«161824_j9397388443804_1_alg».proof.Proof.Kernel.WholeRun
import proofs.«161824_j9397388443804_1_alg».proof.Proof.KernelIdeal.WholeRun
import proofs.«161824_j9397388443804_1_alg».proof.Proof.KernelIdeal.Matrix
import proofs.«161824_j9397388443804_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves the embeddings as they were. -/
theorem frame_k : Cert.frame_Kernel := fun m ρ _ =>
  (θ_run Cert.Kernel.defs _ _).mono (fun _ h c => (h c).2) (Cert.Kernel.Tiles.run (F := Bits) m ρ)

/-- So does the kernel read over the extended reals. -/
theorem frame_ki : Cert.frame_KernelIdeal := fun m ρ _ =>
  (θ_run Cert.KernelIdeal.defs _ _).mono (fun _ h c => (h c).2) (Cert.KernelIdeal.Tiles.run (F := Ideal) m ρ)

/-- The reference is a straight line of host operations. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals. -/
theorem preserves : Cert.preserves_Kernel_KernelIdeal := trivial

/-- Both programs end with the distance matrix of the embeddings they were given. -/
theorem algebraic : Cert.algebraic_KernelIdeal_ReferenceIdeal := by
  intro m ρ m' ρ' _ hagree
  refine ⟨fun c => Cert.Distance.result (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Matrix.lifted_eq m c), (h c).2⟩)
      (Cert.KernelIdeal.Tiles.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.RefValue.stage_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
